-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩

class Facts : Prop where
  bcast_S_S2x96x512x512 : S_.BroadcastsInDim S2x96x512x512 (![] : Fin 0 → Fin S2x96x512x512.rank)
  reducesTo_S2x96x512x512_S_d0_1_2_3 : S2x96x512x512.ReducesTo [0, 1, 2, 3] S_
  h_S_ : 0 < S_.numel
  bcast_S_S2x1x512x512 : S_.BroadcastsInDim S2x1x512x512 (![] : Fin 0 → Fin S2x1x512x512.rank)
  reducesTo_S2x1x512x512_S_d0_1_2_3 : S2x1x512x512.ReducesTo [0, 1, 2, 3] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S2x96x512x512 .f32) (main_arg1 : FVec F S2x96x512x512 .f32) (main_arg2 : IVec S2x512x512 1) (main_arg3 : FVec F S2x1x512x512 .f32) (main_arg4 : FVec F S96 .f32) : IVec S_ 1 :=
  let main_v0 : FVec F S2x96x512x512 .f32 := Host.absf main_arg0
  let main_cst : FVec F S_ .f32 := constant S_ .f32 0x7F800000#32
  let main_v1 : FVec F S2x96x512x512 .f32 := broadcastInDim S2x96x512x512 ![] bcast_S_S2x96x512x512 main_cst
  let main_v2 : IVec S2x96x512x512 1 := cmpf .olt main_v0 main_v1
  let main_c : IVec S_ 1 := constantI S_ 1 1#1
  let main_v3 : IVec S_ 1 := (fun x v => Host.reduce IntOp.andi x v reducesTo_S2x96x512x512_S_d0_1_2_3 h_S_) main_v2 main_c
  let main_v4 : FVec F S2x96x512x512 .f32 := Host.absf main_arg1
  let main_cst_0 : FVec F S_ .f32 := constant S_ .f32 0x7F800000#32
  let main_v5 : FVec F S2x96x512x512 .f32 := broadcastInDim S2x96x512x512 ![] bcast_S_S2x96x512x512 main_cst_0
  let main_v6 : IVec S2x96x512x512 1 := cmpf .olt main_v4 main_v5
  let main_c_1 : IVec S_ 1 := constantI S_ 1 1#1
  let main_v7 : IVec S_ 1 := (fun x v => Host.reduce IntOp.andi x v reducesTo_S2x96x512x512_S_d0_1_2_3 h_S_) main_v6 main_c_1
  let main_v8 : IVec S_ 1 := andi main_v3 main_v7
  let main_v9 : FVec F S2x1x512x512 .f32 := Host.absf main_arg3
  let main_cst_2 : FVec F S_ .f32 := constant S_ .f32 0x7F800000#32
  let main_v10 : FVec F S2x1x512x512 .f32 := broadcastInDim S2x1x512x512 ![] bcast_S_S2x1x512x512 main_cst_2
  let main_v11 : IVec S2x1x512x512 1 := cmpf .olt main_v9 main_v10
  let main_c_3 : IVec S_ 1 := constantI S_ 1 1#1
  let main_v12 : IVec S_ 1 := (fun x v => Host.reduce IntOp.andi x v reducesTo_S2x1x512x512_S_d0_1_2_3 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩
abbrev S96x1x1 : Shape := ⟨3, ![96, 1, 1]⟩
abbrev S1x1 : Shape := ⟨2, ![1, 1]⟩
abbrev S1x96x32x512 : Shape := ⟨4, ![1, 96, 32, 512]⟩
abbrev S1x32x512 : Shape := ⟨3, ![1, 32, 512]⟩
abbrev S96x32x512 : Shape := ⟨3, ![96, 32, 512]⟩
abbrev S32x512 : Shape := ⟨2, ![32, 512]⟩
abbrev S1 : Shape := ⟨1, ![1]⟩
abbrev S1x1x1 : Shape := ⟨3, ![1, 1, 1]⟩

abbrev nBuf : Space → Nat
  | .hbm => 24
  | .vmem => 9
  | .smem => 0
  | _ => 0

abbrev bufTy : (tb : Table) → Fin (tcTables nBuf tb) → BufTy
  | .hbm, ⟨0, _⟩ => ⟨S2x96x512x512, .f32⟩
  | .hbm, ⟨1, _⟩ => ⟨S2x96x512x512, .f32⟩
  | .hbm, ⟨2, _⟩ => ⟨S2x512x512, .i1⟩
  | .hbm, ⟨3, _⟩ => ⟨S2x1x512x512, .f32⟩
  | .hbm, ⟨4, _⟩ => ⟨S96, .f32⟩
  | .hbm, ⟨5, _⟩ => ⟨S2x512x512, .f32⟩
  | .hbm, ⟨6, _⟩ => ⟨S_, .f32⟩
  | .hbm, ⟨7, _⟩ => ⟨S2x512x512, .f32⟩
  | .hbm, ⟨8, _⟩ => ⟨S2x512x512, .i1⟩
  | .hbm, ⟨9, _⟩ => ⟨S2x512x512, .i1⟩
  | .hbm, ⟨10, _⟩ => ⟨S2x512x512, .i1⟩
  | .hbm, ⟨11, _⟩ => ⟨S2x512x512, .f32⟩
  | .hbm, ⟨12, _⟩ => ⟨S96x1x1, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x96x32x512, .f32⟩
  | .local _ .vmem, ⟨1, _⟩ => ⟨S1x96x32x512, .f32⟩
  | .local _ .vmem, ⟨2, _⟩ => ⟨S1x96x32x512, .f32⟩
  | .local _ .vmem, ⟨3, _⟩ => ⟨S1x96x32x512, .f32⟩
  | .local _ .vmem, ⟨4, _⟩ => ⟨S1x32x512, .f32⟩
  | .local _ .vmem, ⟨5, _⟩ => ⟨S1x32x512, .f32⟩
  | .local _ .vmem, ⟨6, _⟩ => ⟨S96x1x1, .f32⟩
  | .local _ .vmem, ⟨7, _⟩ => ⟨S1x1, .f32⟩
  | .local _ .vmem, ⟨8, _⟩ => ⟨S1x1, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S96x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S2x1x512x512_S2x512x512 : S2x1x512x512.ShapeCasts S2x512x512
  bcast_S_S2x512x512 : S_.BroadcastsInDim S2x512x512 (![] : Fin 0 → Fin S2x512x512.rank)
  shapeCasts_S96_S96x1x1 : S96.ShapeCasts S96x1x1
  inb_S1x1_S1x1_0_0 : ∀ a, (![0, 0] : Fin 2 → Nat) a + S1x1.size a ≤ S1x1.size a
  h_S1x1 : 0 < S1x1.numel
  inb_S1x96x32x512_S1x96x32x512_0_0_0_0 : ∀ a, (![0, 0, 0, 0] : Fin 4 → Nat) a + S1x96x32x512.size a ≤ S1x96x32x512.size a
  h_S1x96x32x512 : 0 < S1x96x32x512.numel
  shapeCasts_S1x96x32x512_S96x32x512 : S1x96x32x512.ShapeCasts S96x32x512
  inb_S96x1x1_S96x1x1_0_0_0 : ∀ a, (![0, 0, 0] : Fin 3 → Nat) a + S96x1x1.size a ≤ S96x1x1.size a
  h_S96x1x1 : 0 < S96x1x1.numel
  shapeCasts_S96x1x1_S96x1x1 : S96x1x1.ShapeCasts S96x1x1
  broadcasts_S96x1x1_S96x32x512 : S96x1x1.Broadcasts S96x32x512
  reduces_S96x32x512_S32x512 : S96x32x512.Reduces [0] S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S1x1_S1x1 : S1x1.ShapeCasts S1x1
  shapeCasts_S32x512_S1x32x512 : S32x512.ShapeCasts S1x32x512
  reduces_S1x32x512_S1 : S1x32x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x32x512.size a ≤ S2x96x512x512.size a
  hwx0_0 : ∀ i : grid0.Coords, EltTy.bits .f32 = 32 ∨ (Rect.block (s := S2x96x512x512) S1x96x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x32x512.size a ≤ S2x96x512x512.size a
  hwx0_1 : ∀ i : grid0.Coords, EltTy.bits .f32 = 32 ∨ (Rect.block (s := S2x96x512x512) S1x96x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S2x512x512.size a
  hwx0_2 : ∀ i : grid0.Coords, EltTy.bits .f32 = 32 ∨ (Rect.block (s := S2x512x512) S1x32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x1x1.size a ≤ S96x1x1.size a
  hwx0_3 : ∀ i : grid0.Coords, EltTy.bits .f32 = 32 ∨ (Rect.block (s := S96x1x1) S96x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S1x96x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x96x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S96x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩
abbrev S2x512x512x96 : Shape := ⟨4, ![2, 512, 512, 96]⟩
abbrev S1x1x1x96 : Shape := ⟨4, ![1, 1, 1, 96]⟩

abbrev nBuf : Space → Nat
  | .hbm => 51
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S2x96x512x512, .f32⟩
  | .hbm, ⟨2, _⟩ => ⟨S2x512x512, .i1⟩
  | .hbm, ⟨3, _⟩ => ⟨S2x1x512x512, .f32⟩
  | .hbm, ⟨4, _⟩ => ⟨S96, .f32⟩
  | .hbm, ⟨5, _⟩ => ⟨S2x512x512, .f32⟩
  | .hbm, ⟨6, _⟩ => ⟨S_, .f32⟩
  | .hbm, ⟨7, _⟩ => ⟨S2x512x512, .f32⟩
  | .hbm, ⟨8, _⟩ => ⟨S2x512x512, .i1⟩
  | .hbm, ⟨9, _⟩ => ⟨S2x512x512, .i1⟩
  | .hbm, ⟨10, _⟩ => ⟨S2x512x512, .i1⟩
  | .hbm, ⟨11, _⟩ => ⟨S2x512x512x96, .f32⟩
  | .hbm, ⟨12, _⟩ => ⟨S2x512x512x96, .f32⟩
  | .hbm, ⟨13, _⟩ => ⟨S1x1x1x96, .f32⟩
  | .hbm, ⟨14, _⟩ => ⟨S2x512x512x96, .f32⟩
  | .hbm, ⟨15, _⟩ => ⟨S2x512x512x96, .f32⟩
  | .hbm, ⟨16, _⟩ => ⟨S2x512x512x96, .f32⟩
  | .hbm, ⟨17, _⟩ => ⟨S_, .f32⟩
  | .hbm, ⟨18, _⟩ => ⟨S2x512x512, .f32⟩
  | .hbm, ⟨19, _⟩ => ⟨S2x512x512x96, .f32⟩
  | .hbm, ⟨20, _⟩ => ⟨S_, .f32⟩
  | .hbm, ⟨21, _⟩ => ⟨S2x512x512, .f32⟩
  | .hbm, ⟨22, _⟩ => ⟨S2x512x512, .f32⟩
  | .hbm, ⟨23, _⟩ => ⟨S2x512x512x96, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S_, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S2x512x512, .f32⟩
  | .hbm, ⟨34, _⟩ => ⟨S2x512x512, .f32⟩
  | .hbm, ⟨35, _⟩ => ⟨S_, .f32⟩
  | .hbm, ⟨36, _⟩ => ⟨S2x512x512, .f32⟩
  | .hbm, ⟨37, _⟩ => ⟨S2x512x512, .f32⟩
  | .hbm, ⟨38, _⟩ => ⟨S2x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S2x512x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  shapeCasts_S2x1x512x512_S2x512x512 : S2x1x512x512.ShapeCasts S2x512x512
  bcast_S_S2x512x512 : S_.BroadcastsInDim S2x512x512 (![] : Fin 0 → Fin S2x512x512.rank)
  transposes_S2x96x512x512_S2x512x512x96_0_2_3_1 : S2x96x512x512.Transposes [0, 2, 3, 1] S2x512x512x96
  bcast_S96_S1x1x1x96_3 : S96.BroadcastsInDim S1x1x1x96 (![3] : Fin 1 → Fin S1x1x1x96.rank)
  bcast_S1x1x1x96_S2x512x512x96_0_1_2_3 : S1x1x1x96.BroadcastsInDim S2x512x512x96 (![0, 1, 2, 3] : Fin 4 → Fin S2x512x512x96.rank)
  reducesTo_S2x512x512x96_S2x512x512_d3 : S2x512x512x96.ReducesTo [3] S2x512x512
  h_S_ : 0 < S_.numel
  reducesTo_S2x512x512_S_d0_1_2 : S2x512x512.ReducesTo [0, 1, 2] S_

variable [Facts₀]

class Facts : Prop extends Facts₀ where

variable [Facts]
-- ==== Proof.CaseValues.lean ====
/-
  What each control case of the kernel body leaves in the two [1, 1] accumulators, as values.

  The body runs in two cases. At the first grid point (case A) it stores the zero splat into both accumulators,
  reads each back, and stores accumulator + this block's contribution: the loss accumulator ends at
  `pay1 (loss of the block) (mask of the block) zero`, the count accumulator at `pay2 (mask of the block) zero`.
  At every later point (case B) the accumulators hold what the point before left, `xo4` and `xo5`, and the body
  stores `pay1 … xo4` and `pay2 … xo5`. Each buffer's last store covers it, so what the buffer holds is that store's
  payload, and every load of an input buffer reads the whole buffer.
-/
import proofs.«141522_g66623532696115_cont_9to1c4b_22_15_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Case B, loss accumulator: the carried value plus this block's masked loss sum. -/
theorem out_B_4 (c : Dev nD) (i : grid0.Coords) (a2 : Memref sig .tc .vmem S1x96x32x512 .f32) (h2 : a2.IsWhole) (a3 : Memref sig .tc .vmem S1x96x32x512 .f32) (h3 : a3.IsWhole) (a4 : Memref sig .tc .vmem S1x32x512 .f32) (h4 : a4.IsWhole) (a5 : Memref sig .tc .vmem S96x1x1 .f32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S1x96x32x512 .f32) (x2 : Vec F S1x32x512 .f32) (x3 : Vec F S96x1x1 .f32) (xo4 xo5 : Vec F S1x1 .f32) :
    out0_B_4 c i a2 h2 a3 h3 a4 h4 a5 h5 a6 h6 a7 h7 hc x0 x1 x2 x3 xo4 xo5 = k0_pay1 (k0_pay5 x0 x1 x3) (k0_pay6 x2) xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S1x96x32x512) hz4, View.ld_unit_zero (S := S96x1x1) hz3, View.ld_unit_zero (S := S1x32x512) hz3,
    View.ld_unit_zero (S := S1x1) hz2]

/-- Case B, count accumulator: the carried value plus this block's mask sum. -/
theorem out_B_5 (c : Dev nD) (i : grid0.Coords) (a2 : Memref sig .tc .vmem S1x96x32x512 .f32) (h2 : a2.IsWhole) (a3 : Memref sig .tc .vmem S1x96x32x512 .f32) (h3 : a3.IsWhole) (a4 : Memref sig .tc .vmem S1x32x512 .f32) (h4 : a4.IsWhole) (a5 : Memref sig .tc .vmem S96x1x1 .f32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S1x96x32x512 .f32) (x2 : Vec F S1x32x512 .f32) (x3 : Vec F S96x1x1 .f32) (xo4 xo5 : Vec F S1x1 .f32) :
    out0_B_5 c i a2 h2 a3 h3 a4 h4 a5 h5 a6 h6 a7 h7 hc x0 x1 x2 x3 xo4 xo5 = k0_pay2 (k0_pay6 x2) xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S1x96x32x512) hz4, View.ld_unit_zero (S := S96x1x1) hz3, View.ld_unit_zero (S := S1x32x512) hz3,
    View.ld_unit_zero (S := S1x1) hz2]

/-- Case A, loss accumulator: the zero splat, read back, plus this block's masked loss sum. -/
theorem out_A_4 (c : Dev nD) (i : grid0.Coords) (a2 : Memref sig .tc .vmem S1x96x32x512 .f32) (h2 : a2.IsWhole) (a3 : Memref sig .tc .vmem S1x96x32x512 .f32) (h3 : a3.IsWhole) (a4 : Memref sig .tc .vmem S1x32x512 .f32) (h4 : a4.IsWhole) (a5 : Memref sig .tc .vmem S96x1x1 .f32) (h5 : a5.IsWhole) (a6 : Memref sig .tc .vmem S1x1 .f32) (h6 : a6.IsWhole) (a7 : Memref sig .tc .vmem S1x1 .f32) (h7 : a7.IsWhole) (hc : cond0_0 i)
    (x0 x1 : Vec F S1x96x32x512 .f32) (x2 : Vec F S1x32x512 .f32) (x3 : Vec F S96x1x1 .f32) :
    out0_A_4 c i a2 h2 a3 h3 a4 h4 a5 h5 a6 h6 a7 h7 hc x0 x1 x2 x3 = k0_pay1 (k0_pay5 x0 x1 x3) (k0_pay6 x2) (k0_pay3 (F := F)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x96x32x512) hz4, View.ld_unit_zero (S := S96x1x1) hz3, View.ld_unit_zero (S := S1x32x512) hz3,
    View.ld_unit_zero (S := S1x1) hz2]

/-- Case A, count accumulator: the zero splat, read back, plus this block's mask sum. -/
theorem out_A_5 (c : Dev nD) (i : grid0.Coords) (a2 : Memref sig .tc .vmem S1x96x32x512 .f32) (h2 : a2.IsWhole) (a3 : Memref sig .tc .vmem S1x96x32x512 .f32) (h3 : a3.IsWhole) (a4 : Memref sig .tc .vmem S1x32x512 .f32) (h4 : a4.IsWhole) (a5 : Memref sig .tc .vmem S96x1x1 .f32) (h5 : a5.IsWhole) (a6 : Memref sig .tc .vmem S1x1 .f32) (h6 : a6.IsWhole) (a7 : Memref sig .tc .vmem S1x1 .f32) (h7 : a7.IsWhole) (hc : cond0_0 i)
    (x0 x1 : Vec F S1x96x32x512 .f32) (x2 : Vec F S1x32x512 .f32) (x3 : Vec F S96x1x1 .f32) :
    out0_A_5 c i a2 h2 a3 h3 a4 h4 a5 h5 a6 h6 a7 h7 hc x0 x1 x2 x3 = k0_pay2 (k0_pay6 x2) (k0_pay4 (F := F)) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x96x32x512) hz4, View.ld_unit_zero (S := S96x1x1) hz3, View.ld_unit_zero (S := S1x32x512) hz3,
    View.ld_unit_zero (S := S1x1) hz2]

end Cert.KernelIdeal.Acc

end
-- ==== Proof.Accum.lean ====
/-
  The two accumulators after each grid point, as a recursion over the points.

  At point `t` the body sees four input blocks: the student block and the teacher block [1, 96, 32, 512], the mask
  block [1, 32, 512] and the centre [96, 1, 1]. From them it computes the per-pixel loss of the block (`lossOf`) and
  the block's mask with its unit axis dropped (`maskOf`). After point 0 the accumulators hold the zero splat plus
  the block's contribution; after point `n + 1` what point `n` left plus the block's contribution. `acc` is that
  recursion, and what the kernel's run leaves in the two buffers after every point is `acc`.
-/
import proofs.«141522_g66623532696115_cont_9to1c4b_22_15_alg».proof.Proof.CaseValues

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The student block at point `t`. -/
abbrev sblk (c : Dev nD) (t : Fin cfg0.N) : Vec F S1x96x32x512 .f32 := iblk m c 0 t
/-- The teacher block at point `t`. -/
abbrev tblk (c : Dev nD) (t : Fin cfg0.N) : Vec F S1x96x32x512 .f32 := iblk m c 1 t
/-- The mask block at point `t`. -/
abbrev vblk (c : Dev nD) (t : Fin cfg0.N) : Vec F S1x32x512 .f32 := iblk m c 2 t
/-- The centre, as the body loads it at point `t`. -/
abbrev cblk (c : Dev nD) (t : Fin cfg0.N) : Vec F S96x1x1 .f32 := iblk m c 3 t

/-- The per-pixel loss of block `t`, as the body computes it. -/
abbrev lossOf (c : Dev nD) (t : Fin cfg0.N) : FVec F S32x512 .f32 := k0_pay5 (sblk m c t) (tblk m c t) (cblk m c t)
/-- The mask of block `t` with the unit axis dropped. -/
abbrev maskOf (c : Dev nD) (t : Fin cfg0.N) : FVec F S32x512 .f32 := k0_pay6 (vblk m c t)

/-- The loss accumulator and the count accumulator after point `n`. -/
def acc (c : Dev nD) : (n : ℕ) → n < cfg0.N → Vec F S1x1 .f32 × Vec F S1x1 .f32
  | 0, h => (k0_pay1 (lossOf m c ⟨0, h⟩) (maskOf m c ⟨0, h⟩) (k0_pay3 (F := F)), k0_pay2 (maskOf m c ⟨0, h⟩) (k0_pay4 (F := F)))
  | n + 1, h => (k0_pay1 (lossOf m c ⟨n + 1, h⟩) (maskOf m c ⟨n + 1, h⟩) (acc c n (Nat.lt_of_succ_lt h)).1,
      k0_pay2 (maskOf m c ⟨n + 1, h⟩) (acc c n (Nat.lt_of_succ_lt h)).2)

/-- What the run leaves in the two accumulators after point `n` is `acc`: by induction on the point, the first point
    in case A, every later one in case B over what the point before left. -/
theorem outsAt_eq (c : Dev nD) : ∀ (n : ℕ) (h : n < cfg0.N), outsAt0 m c n h = acc m c n h
  | 0, h => by
    rw [outsAt0_A m c ⟨0, h⟩ rfl, out_A_4, out_A_5]
    rfl
  | n + 1, h => by
    have hN : cfg0.N = 32 := N_0
    have hB : ¬(⟨n + 1, h⟩ : Fin cfg0.N).val % 32 = 0 := by dsimp only; omega
    rw [outsAt0_B m c ⟨n + 1, h⟩ hB, out_B_4, out_B_5]
    show (k0_pay1 _ _ (outsAt0 m c n _).1, k0_pay2 _ (outsAt0 m c n _).2) = _
    rw [outsAt_eq c n]
    rfl

end Cert.KernelIdeal.Acc

end
-- ==== Proof.Final.lean ====
/-
  The kernel program's result: the two accumulators after the last grid point, then the host operations after the region.

  Both accumulator windows have the constant block index (0, 0) and are written back once, after the last of the
  32 points; their block is the whole [1, 1] array. So after the region the loss-sum array holds the loss accumulator
  after point 31 and the count array the count accumulator after point 31. The host operations after the region
  reshape both to scalars `s` and `n` and return `n > 0 ? s / max(n, 1) : 0`.
-/
import proofs.«141522_g66623532696115_cont_9to1c4b_22_15_alg».proof.Proof.Accum
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem last_lt : 31 < cfg0.N := by rw [show cfg0.N = 32 from N_0]; decide

/-- The last grid point. -/
abbrev lastPt : Fin cfg0.N := ⟨31, last_lt⟩

/-- The loss accumulator after the last point. -/
abbrev sumEnd (c : Dev nD) : Vec F S1x1 .f32 := (acc m c 31 last_lt).1
/-- The count accumulator after the last point. -/
abbrev cntEnd (c : Dev nD) : Vec F S1x1 .f32 := (acc m c 31 last_lt).2

/-- The one write-back of the loss accumulator, at the last point, writes `sumEnd`: block (0, 0) of the [1, 1] array
    read at zero offsets is the array. -/
theorem flushed4_eq (c : Dev nD) (t : Fin cfg0.N) (hf : (cfg0.win 4).flush t = true) :
    (dats m 0 c).flushed 4 t = ((cfg0.win 4).blk t).view.read (Elt F) (sumEnd m c) := by
  have hN : cfg0.N = 32 := N_0
  have h3 : t.val = 31 := by have := (flush0_4 t).mp hf; have := t.isLt; omega
  obtain rfl : t = lastPt := Fin.ext h3
  show (cfg0.win 4).cut (grid0.coords lastPt) ((dats m 0 c).after 4 lastPt) = _
  rw [after0_4, outsAt_eq]
  have hz' : (fun a => win0_4.index lastPt a * main_v7_0.ty.shape.size a) = fun _ => 0 := funext fun a => by fin_cases a <;> decide
  exact (Memref.read_access_unit_zero (Elt F) main_v7_0 hz' (fun a => by rw [congrFun hz' a]; simp) (sumEnd m c)).symm

/-- The one write-back of the count accumulator likewise writes `cntEnd`. -/
theorem flushed5_eq (c : Dev nD) (t : Fin cfg0.N) (hf : (cfg0.win 5).flush t = true) :
    (dats m 0 c).flushed 5 t = ((cfg0.win 5).blk t).view.read (Elt F) (cntEnd m c) := by
  have hN : cfg0.N = 32 := N_0
  have h3 : t.val = 31 := by have := (flush0_5 t).mp hf; have := t.isLt; omega
  obtain rfl : t = lastPt := Fin.ext h3
  show (cfg0.win 5).cut (grid0.coords lastPt) ((dats m 0 c).after 5 lastPt) = _
  rw [after0_5, outsAt_eq]
  have hz' : (fun a => win0_5.index lastPt a * main_v7_1.ty.shape.size a) = fun _ => 0 := funext fun a => by fin_cases a <;> decide
  exact (Memref.read_access_unit_zero (Elt F) main_v7_1 hz' (fun a => by rw [congrFun hz' a]; simp) (cntEnd m c)).symm

/-- The loss-sum array after the region: the last point's block covers its one entry. -/
theorem final4 (c : Dev nD) : (dats m 0 c).arrAt 4 cfg0.N = sumEnd m c :=
  (dats m 0 c).arrAt_eq_of_cover 4 (sumEnd m c) (flushed4_eq m c) fun i =>
    ⟨lastPt, (flush0_4 lastPt).mpr rfl, by
      show i ∈ ((View.whole main_v7_0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 1 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 1 from by decide +kernel]; omega⟩

/-- The count array after the region. -/
theorem final5 (c : Dev nD) : (dats m 0 c).arrAt 5 cfg0.N = cntEnd m c :=
  (dats m 0 c).arrAt_eq_of_cover 5 (cntEnd m c) (flushed5_eq m c) fun i =>
    ⟨lastPt, (flush0_5 lastPt).mpr rfl, by
      show i ∈ ((View.whole main_v7_1).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_5.index lastPt 0 * win0_5.size 0 ≤ (i 0 : Nat) ∧ (i 0 : Nat) < win0_5.index lastPt 0 * win0_5.size 0 + win0_5.xsize (grid0.coords lastPt) 0
                  rw [show win0_5.index lastPt 0 * win0_5.size 0 = 0 from by decide +kernel, show win0_5.xsize (grid0.coords lastPt) 0 = 1 from by decide +kernel]; omega
      | ⟨1, _⟩ => show win0_5.index lastPt 1 * win0_5.size 1 ≤ (i 1 : Nat) ∧ (i 1 : Nat) < win0_5.index lastPt 1 * win0_5.size 1 + win0_5.xsize (grid0.coords lastPt) 1
                  rw [show win0_5.index lastPt 1 * win0_5.size 1 = 0 from by decide +kernel, show win0_5.xsize (grid0.coords lastPt) 1 = 1 from by decide +kernel]; omega⟩

/-- What the host operations after the region return from a loss-sum array `R4` and a count array `R5`:
    with `s` and `n` their entries, `n > 0 ? s / max(n, 1) : 0`. -/
def tailOf (R4 R5 : Vec F S1x1 .f32) : S_.Idx → Elt F .f32 :=
  select (cmpf (F := F) .ogt (shapeCast S_ R5 shapeCasts_S1x1_S_) (constant (F := F) S_ .f32 0x00000000#32))
    (Host.divf (shapeCast S_ R4 shapeCasts_S1x1_S_)
      (maximumf (shapeCast S_ R5 shapeCasts_S1x1_S_) (constant (F := F) S_ .f32 0x3F800000#32)))
    (constant (F := F) S_ .f32 0x00000000#32)

/-- The result buffer after the host operations that follow the region. -/
theorem tail_eq (c : Dev nD) :
    Pipeline.afterTail₀ cfgs (dats m) 0 (V0 m) [hostOps1, hostOps1_1] c main_v13 = tailOf (sumEnd m c) (cntEnd m c) := by
  unfold Pipeline.afterTail₀
  simp only [hostOps1, hostOps1_1, List.flatten_cons, List.flatten_nil, List.append_nil, List.cons_append, List.nil_append]
  after_results
  have e4 : Pipeline.withArrays (cfgs 0).spec c (V0 m c) (fun w => (dats m 0 c).arrAt w (cfgs 0).N) (Proc.tc.devRef main_v7_0) = sumEnd m c :=
    (Pipeline.withArrays_arr spec0 launch0.win.arr_inj c _ _ 4).trans (final4 m c)
  have e5 : Pipeline.withArrays (cfgs 0).spec c (V0 m c) (fun w => (dats m 0 c).arrAt w (cfgs 0).N) (Proc.tc.devRef main_v7_1) = cntEnd m c :=
    (Pipeline.withArrays_arr spec0 launch0.win.arr_inj c _ _ 5).trans (final5 m c)
  rw [e4, e5]
  rfl

/-- The kernel program's run, read: the result buffer at the tail's term of the two final accumulators, the five
    arguments unchanged. -/
theorem run : θ_run defs (onTc (τ := τ) (main (F := F))) ⟨m, fun _ => 0, ρ⟩ fun r => ∀ c : Dev nD,
      r.2.mem ((c.tc : Thread nD τ).loc main_v13) = tailOf (sumEnd m c) (cntEnd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.BlockRead.lean ====
/-
  What the kernel's input blocks hold, entry by entry, in terms of the arrays the region finds.

  Grid point `t` of the 2 × 16 grid is batch `t / 16` and row tile `t mod 16`. The student and teacher windows
  cut [1, 96, 32, 512] blocks out of the [2, 96, 512, 512] arrays at block index (t / 16, 0, t mod 16, 0); the mask
  window cuts a [1, 32, 512] block out of the [2, 512, 512] mask at (t / 16, t mod 16, 0); the centre window is the
  whole [96, 1, 1] array at every point. An entry of a block is the entry of the array at block index × block size
  + the position inside the block, axis by axis.
  The mask array is computed by the host operations before the region, from the two arguments it depends on; the
  centre array is the centre argument reshaped.
-/
import proofs.«141522_g66623532696115_cont_9to1c4b_22_15_alg».proof.Proof.Accum
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The student window's block index at point `t`: (t / 16, 0, t mod 16, 0). -/
theorem idx0 : ∀ t : Fin cfg0.N, win0_0.index t 0 = (t.val / 16) % 2 ∧ win0_0.index t 1 = 0 ∧ win0_0.index t 2 = t.val % 16 ∧ win0_0.index t 3 = 0 :=
  (by decide +kernel : ∀ t : Fin grid0.N, win0_0.index t 0 = (t.val / 16) % 2 ∧ win0_0.index t 1 = 0 ∧ win0_0.index t 2 = t.val % 16 ∧ win0_0.index t 3 = 0)

/-- The teacher window's block index at point `t`: the same. -/
theorem idx1 : ∀ t : Fin cfg0.N, win0_1.index t 0 = (t.val / 16) % 2 ∧ win0_1.index t 1 = 0 ∧ win0_1.index t 2 = t.val % 16 ∧ win0_1.index t 3 = 0 :=
  (by decide +kernel : ∀ t : Fin grid0.N, win0_1.index t 0 = (t.val / 16) % 2 ∧ win0_1.index t 1 = 0 ∧ win0_1.index t 2 = t.val % 16 ∧ win0_1.index t 3 = 0)

/-- The mask window's block index at point `t`: (t / 16, t mod 16, 0). -/
theorem idx2 : ∀ t : Fin cfg0.N, win0_2.index t 0 = (t.val / 16) % 2 ∧ win0_2.index t 1 = t.val % 16 ∧ win0_2.index t 2 = 0 :=
  (by decide +kernel : ∀ t : Fin grid0.N, win0_2.index t 0 = (t.val / 16) % 2 ∧ win0_2.index t 1 = t.val % 16 ∧ win0_2.index t 2 = 0)

/-- The centre window's block index is (0, 0, 0) at every point. -/
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- Entry (0, d, r, w) of the student block at point `t` is entry (t / 16, d, 32·(t mod 16) + r, w) of the student array. -/
theorem sblk_apply (c : Dev nD) (t : Fin cfg0.N) (d : Fin 96) (r : Fin 32) (w : Fin 512) :
    sblk m c t (ix4 (0 : Fin 1) d r w)
      = V m c main_arg0 (ix4 (⟨(t.val / 16) % 2, Nat.mod_lt _ (by decide)⟩ : Fin 2) d (⟨32 * (t.val % 16) + r.val, by omega⟩ : Fin 512) w) := by
  unfold sblk iblk
  rw [View.read_apply]
  show V m c main_arg0 (((cfg0.win 0).blk t).view.emb (ix4 (0 : Fin 1) d r w)) = _
  refine congrArg (V m c main_arg0) (funext fun a => Fin.ext ?_)
  obtain ⟨i0, i1, i2, i3⟩ := idx0 t
  match a with
  | ⟨0, _⟩ => show win0_0.index t 0 * 1 + 1 * 0 = (t.val / 16) % 2; rw [i0]; omega
  | ⟨1, _⟩ => show win0_0.index t 1 * 96 + 1 * d.val = d.val; rw [i1]; omega
  | ⟨2, _⟩ => show win0_0.index t 2 * 32 + 1 * r.val = 32 * (t.val % 16) + r.val; rw [i2]; omega
  | ⟨3, _⟩ => show win0_0.index t 3 * 512 + 1 * w.val = w.val; rw [i3]; omega

/-- Entry (0, d, r, w) of the teacher block at point `t` is entry (t / 16, d, 32·(t mod 16) + r, w) of the teacher array. -/
theorem tblk_apply (c : Dev nD) (t : Fin cfg0.N) (d : Fin 96) (r : Fin 32) (w : Fin 512) :
    tblk m c t (ix4 (0 : Fin 1) d r w)
      = V m c main_arg1 (ix4 (⟨(t.val / 16) % 2, Nat.mod_lt _ (by decide)⟩ : Fin 2) d (⟨32 * (t.val % 16) + r.val, by omega⟩ : Fin 512) w) := by
  unfold tblk iblk
  rw [View.read_apply]
  show V m c main_arg1 (((cfg0.win 1).blk t).view.emb (ix4 (0 : Fin 1) d r w)) = _
  refine congrArg (V m c main_arg1) (funext fun a => Fin.ext ?_)
  obtain ⟨i0, i1, i2, i3⟩ := idx1 t
  match a with
  | ⟨0, _⟩ => show win0_1.index t 0 * 1 + 1 * 0 = (t.val / 16) % 2; rw [i0]; omega
  | ⟨1, _⟩ => show win0_1.index t 1 * 96 + 1 * d.val = d.val; rw [i1]; omega
  | ⟨2, _⟩ => show win0_1.index t 2 * 32 + 1 * r.val = 32 * (t.val % 16) + r.val; rw [i2]; omega
  | ⟨3, _⟩ => show win0_1.index t 3 * 512 + 1 * w.val = w.val; rw [i3]; omega

/-- Entry (0, r, w) of the mask block at point `t` is entry (t / 16, 32·(t mod 16) + r, w) of the mask array. -/
theorem vblk_apply (c : Dev nD) (t : Fin cfg0.N) (r : Fin 32) (w : Fin 512) :
    vblk m c t (ix3 (0 : Fin 1) r w)
      = V m c main_v5 (ix3 (⟨(t.val / 16) % 2, Nat.mod_lt _ (by decide)⟩ : Fin 2) (⟨32 * (t.val % 16) + r.val, by omega⟩ : Fin 512) w) := by
  unfold vblk iblk
  rw [View.read_apply]
  show V m c main_v5 (((cfg0.win 2).blk t).view.emb (ix3 (0 : Fin 1) r w)) = _
  refine congrArg (V m c main_v5) (funext fun a => Fin.ext ?_)
  obtain ⟨i0, i1, i2⟩ := idx2 t
  match a with
  | ⟨0, _⟩ => show win0_2.index t 0 * 1 + 1 * 0 = (t.val / 16) % 2; rw [i0]; omega
  | ⟨1, _⟩ => show win0_2.index t 1 * 32 + 1 * r.val = 32 * (t.val % 16) + r.val; rw [i1]; omega
  | ⟨2, _⟩ => show win0_2.index t 2 * 512 + 1 * w.val = w.val; rw [i2]; omega

/-- Entry (d, 0, 0) of the centre block is entry (d, 0, 0) of the reshaped centre, at every point. -/
theorem cblk_apply (c : Dev nD) (t : Fin cfg0.N) (d : Fin 96) :
    cblk m c t (ix3 d (0 : Fin 1) (0 : Fin 1)) = V m c main_v6 (ix3 d (0 : Fin 1) (0 : Fin 1)) := by
  unfold cblk iblk
  rw [View.read_apply]
  show V m c main_v6 (((cfg0.win 3).blk t).view.emb (ix3 d (0 : Fin 1) (0 : Fin 1))) = _
  refine congrArg (V m c main_v6) (funext fun a => Fin.ext ?_)
  obtain ⟨i0, i1, i2⟩ := idx3 t
  match a with
  | ⟨0, _⟩ => show win0_3.index t 0 * 96 + 1 * d.val = d.val; rw [i0]; omega
  | ⟨1, _⟩ => show win0_3.index t 1 * 1 + 1 * 0 = 0; rw [i1]
  | ⟨2, _⟩ => show win0_3.index t 2 * 1 + 1 * 0 = 0; rw [i2]

/-- The mask array the region finds: 1.0 where the first channel of `original_x` is not zero and `mask` is clear,
    else 0.0 — the host operations before the region, composed. -/
theorem V_mask (c : Dev nD) :
    (V m c main_v5 : S2x512x512.Idx → Elt F .f32)
      = uitofp (F := F) .f32 (andi (cmpf (F := F) .une (shapeCast S2x512x512 (m ((c : Thread nD τ).loc main_arg3)) shapeCasts_S2x1x512x512_S2x512x512)
          (broadcastInDim S2x512x512 ![] bcast_S_S2x512x512 (constant (F := F) S_ .f32 0x00000000#32)))
          (noti (m ((c : Thread nD τ).loc main_arg2)))) := by
  show StableHlo.after hostOps0 (fun b => m (c, b)) (Proc.devRef .tc main_v5) = _
  after_results
  rfl

/-- The centre array the region finds: the centre argument reshaped to [96, 1, 1]. -/
theorem V_centre (c : Dev nD) :
    (V m c main_v6 : S96x1x1.Idx → Elt F .f32) = shapeCast S96x1x1 (m ((c : Thread nD τ).loc main_arg4)) shapeCasts_S96_S96x1x1 := by
  show StableHlo.after hostOps0 (fun b => m (c, b)) (Proc.devRef .tc main_v6) = _
  after_results
  rfl

end Cert.KernelIdeal.Acc

end
-- ==== Proof.LossSpec.lean ====
/-
  The masked per-pixel cosine loss, as plain functions on the extended reals.

  For a pixel, with student channel vector `s`, teacher channel vector `t` and centre `c` (all of length 96),
  the loss is `1 - ⟨s, t - c⟩ / (max(√⟨s,s⟩, ε) · max(√⟨t-c,t-c⟩, ε))`.
  The pixels of the [2, 512, 512] image are cut into 32 blocks of [1, 32, 512]: block `k` is batch `k / 16`,
  rows `32·(k mod 16) … 32·(k mod 16) + 31`, every column. `pt k i` is the pixel of the image at position `i`
  of block `k`, and `blockSum f k` the sum of `f` over block `k`.
-/
import Idealize.ShloMosaic.PureOps.Ideal
import Idealize.ShloMosaic.Lib.ValueIdx

noncomputable section

open scoped BigOperators

namespace Cert.Loss

open Idealize.ShloMosaic Idealize.ShloMosaic.ValueIdx

/-- The image's pixels: batch, row, column. -/
abbrev SPix : Shape := ⟨3, ![2, 512, 512]⟩
/-- One block of pixels: a unit batch axis, 32 rows, 512 columns. -/
abbrev SBlk : Shape := ⟨3, ![1, 32, 512]⟩

/-- The float `1.0` as an extended real. -/
abbrev one : EReal := Ideal.ofBits .f32 0x3F800000#32
/-- The float nearest `1e-8`, the floor under each norm, as an extended real. -/
abbrev eps : EReal := Ideal.ofBits .f32 0x322BCC77#32

/-- The cosine loss of one pixel from its three channel vectors. -/
def lossAt (s t c : Fin 96 → EReal) : EReal :=
  one - Ideal.div (∑ d : Fin 96, s d * (t d - c d))
    (max (Ideal.sqrt (∑ d : Fin 96, s d * s d)) eps * max (Ideal.sqrt (∑ d : Fin 96, (t d - c d) * (t d - c d))) eps)

/-- The 96 channel values of a [2, 96, 512, 512] array at pixel `p` (batch, row, column). -/
def chan (x : (⟨4, ![2, 96, 512, 512]⟩ : Shape).Idx → EReal) (p : SPix.Idx) : Fin 96 → EReal :=
  fun d => x (ix4 (⟨(p 0).val, (p 0).isLt⟩ : Fin 2) d (⟨(p 1).val, (p 1).isLt⟩ : Fin 512) (⟨(p 2).val, (p 2).isLt⟩ : Fin 512))

/-- The centre as a channel vector. -/
def cen (x : (⟨1, ![96]⟩ : Shape).Idx → EReal) : Fin 96 → EReal := fun d => x (ix1 d)

/-- The loss of pixel `p` from the student array, the teacher array and the centre. -/
def pixLoss (x0 x1 : (⟨4, ![2, 96, 512, 512]⟩ : Shape).Idx → EReal) (x4 : (⟨1, ![96]⟩ : Shape).Idx → EReal)
    (p : SPix.Idx) : EReal :=
  lossAt (chan x0 p) (chan x1 p) (cen x4)

/-- The pixel at position `i` of block `k`: batch `k / 16`, row `32·(k mod 16) + i₁`, column `i₂`. -/
def pt (k : ℕ) (i : SBlk.Idx) : SPix.Idx :=
  ix3 (⟨(k / 16) % 2, Nat.mod_lt _ (by decide)⟩ : Fin 2)
    (⟨32 * (k % 16) + (i 1).val, by have h : (i 1).val < 32 := (i 1).isLt; omega⟩ : Fin 512)
    (⟨(i 2).val, (i 2).isLt⟩ : Fin 512)

theorem pt_val0 (k : ℕ) (i : SBlk.Idx) : (pt k i 0).val = (k / 16) % 2 := rfl
theorem pt_val1 (k : ℕ) (i : SBlk.Idx) : (pt k i 1).val = 32 * (k % 16) + (i 1).val := rfl
theorem pt_val2 (k : ℕ) (i : SBlk.Idx) : (pt k i 2).val = (i 2).val := rfl

/-- The sum of `f` over the pixels of block `k`. -/
def blockSum (f : SPix.Idx → EReal) (k : ℕ) : EReal := ∑ i : SBlk.Idx, f (pt k i)

end Cert.Loss

end
-- ==== Proof.KerLoss.lean ====
/-
  The arithmetic of the kernel body, read at an index, at the ideal (extended-real) instance.

  The body computes, for one [96, 32, 512] block of student and teacher channels and the 96 centres, the per-pixel
  cosine loss; it drops the unit axis of a [1, 32, 512] block of validity weights; and it adds to each of two carried [1, 1]
  accumulators the total of a [1, 32, 512] vector. Each theorem below reads one of those values at an index given
  by coordinates: the loss of pixel (r, w) is `lossAt` of that pixel's three channel vectors, the squeezed block at
  (r, w) is the block at (0, r, w), and each accumulator update is the old value plus a sum over every index of the
  [1, 32, 512] vector.
-/
import proofs.«141522_g66623532696115_cont_9to1c4b_22_15_alg».proof.Proof.LossSpec
import proofs.«141522_g66623532696115_cont_9to1c4b_22_15_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerLoss

open Idealize.ShloMosaic Idealize.ShloMosaic.ValueIdx Cert.KernelIdeal Cert.KernelIdeal.Gen Cert.Loss

/-! ## The per-pixel loss of one block -/

/-- The sum over the channel axis of a [96, 32, 512] vector, at pixel `(r, w)`, is the sum over the 96 channels of the
    vector at `(d, r, w)`. -/
theorem chanSum_apply (v : FVec Ideal S96x32x512 .f32) (h : S96x32x512.Reduces [0] S32x512) (hφ : FKind.Formats .f32)
    (hacc : (0x00000000#32 : BitVec 32) = FKind.add.neutral .f32 hφ) (r : Fin 32) (w : Fin 512) :
    multiReduction (F := Ideal) .add [0] S32x512 v 0x00000000#32 h hφ hacc (ix2 r w) = ∑ d : Fin 96, v (ix3 d r w) := by
  refine (Ideal.multiReduction_add_single v _ h hφ hacc (ix2 r w)).trans ?_
  refine Finset.sum_congr rfl fun d _ => congrArg v ?_
  funext c
  match c with
  | ⟨0, _⟩ => rfl
  | ⟨1, _⟩ => rfl
  | ⟨2, _⟩ => rfl

/-- The centre column [96, 1, 1] spread over the block reads, at `(d, r, w)`, the centre of channel `d`. -/
theorem centre_apply (c : Vec Ideal S96x1x1 .f32) (h1 : S96x1x1.ShapeCasts S96x1x1) (h2 : S96x1x1.Broadcasts S96x32x512)
    (d : Fin 96) (r : Fin 32) (w : Fin 512) :
    broadcastTo S96x32x512 (shapeCast S96x1x1 c h1) h2 (ix3 d r w) = c (ix3 d (0 : Fin 1) (0 : Fin 1)) := by
  refine (broadcastTo_apply _ h2 (ix3 d r w) (ix3 d (0 : Fin 1) (0 : Fin 1)) fun a => ?_).trans
    (congrFun (shapeCast_self c h1) _)
  match a with
  | ⟨0, _⟩ => rfl
  | ⟨1, _⟩ => rfl
  | ⟨2, _⟩ => rfl

/-- The arithmetic after the three channel sums is pointwise: from the numerator `n` and the two squared norms `p`,
    `q` at a pixel, `1 - n / (max(√p, ε) · max(√q, ε))`. -/
theorem tail_apply (n p q : FVec Ideal S32x512 .f32) (i : S32x512.Idx) :
    subf (broadcast S32x512 (Scalar.ofBits (F := Ideal) .f32 0x3F800000#32))
      (divf n (mulf (maximumf (sqrt p) (broadcast S32x512 (Scalar.ofBits (F := Ideal) .f32 0x322BCC77#32)))
        (maximumf (sqrt q) (broadcast S32x512 (Scalar.ofBits (F := Ideal) .f32 0x322BCC77#32))))) i
      = one - Ideal.div (n i) (max (Ideal.sqrt (p i)) eps * max (Ideal.sqrt (q i)) eps) := rfl

/-- THE LOSS AT A PIXEL. For a student block `b0` and a teacher block `b1` of shape [1, 96, 32, 512] and the centres `b3`
    of shape [96, 1, 1], the body's loss at pixel `(r, w)` is the cosine loss `lossAt` of the three channel vectors of
    that pixel: `d ↦ b0 (0, d, r, w)`, `d ↦ b1 (0, d, r, w)` and `d ↦ b3 (d, 0, 0)`. The unit axis of each block is
    dropped, the centres are spread over the pixels, each of the three sums runs over the 96 channels, and what follows
    the sums is pointwise. -/
theorem pay5_apply (b0 b1 : Vec Ideal S1x96x32x512 .f32) (b3 : Vec Ideal S96x1x1 .f32) (r : Fin 32) (w : Fin 512) :
    k0_pay5 (F := Ideal) b0 b1 b3 (ix2 r w)
      = lossAt (fun d => b0 (ix4 (0 : Fin 1) d r w)) (fun d => b1 (ix4 (0 : Fin 1) d r w)) (fun d => b3 (ix3 d (0 : Fin 1) (0 : Fin 1))) := by
  unfold k0_pay5 lossAt
  have es : ∀ d : Fin 96, shapeCast S96x32x512 b0 shapeCasts_S1x96x32x512_S96x32x512 (ix3 d r w) = b0 (ix4 (0 : Fin 1) d r w) :=
    fun d => shapeCast_1abc_abc_apply b0 _ d r w
  have et : ∀ d : Fin 96, subf (F := Ideal) (φ := .f32) (shapeCast S96x32x512 b1 shapeCasts_S1x96x32x512_S96x32x512)
        (broadcastTo S96x32x512 (shapeCast S96x1x1 b3 shapeCasts_S96x1x1_S96x1x1) broadcasts_S96x1x1_S96x32x512) (ix3 d r w)
      = b1 (ix4 (0 : Fin 1) d r w) - b3 (ix3 d (0 : Fin 1) (0 : Fin 1)) :=
    fun d => congrArg₂ (· - ·) (shapeCast_1abc_abc_apply b1 _ d r w) (centre_apply b3 _ _ d r w)
  refine (tail_apply _ _ _ (ix2 r w)).trans ?_
  refine congrArg₂ (fun a b => one - Ideal.div a b) ?_ (congrArg₂ (fun a b => max (Ideal.sqrt a) eps * max (Ideal.sqrt b) eps) ?_ ?_)
  · exact (chanSum_apply _ _ _ _ r w).trans (Finset.sum_congr rfl fun d _ => congrArg₂ (· * ·) (es d) (et d))
  · exact (chanSum_apply _ _ _ _ r w).trans (Finset.sum_congr rfl fun d _ => congrArg₂ (· * ·) (es d) (es d))
  · exact (chanSum_apply _ _ _ _ r w).trans (Finset.sum_congr rfl fun d _ => congrArg₂ (· * ·) (et d) (et d))

/-! ## The validity block without its unit axis -/

/-- A [1, 32, 512] block viewed [32, 512] reads, at `(r, w)`, the block at `(0, r, w)`. -/
theorem pay6_apply (v29 : Vec Ideal S1x32x512 .f32) (r : Fin 32) (w : Fin 512) :
    k0_pay6 (F := Ideal) v29 (ix2 r w) = v29 (ix3 (0 : Fin 1) r w) := by
  unfold k0_pay6
  exact shapeCast_1ab_ab_apply v29 _ r w

/-! ## The two accumulators -/

/-- A vector whose every entry is `c`, viewed at another shape, reads `c` at every index. -/
theorem shapeCast_const {s t : Shape} {α : Type} (M : s.Idx → α) (c : α) (hM : ∀ j, M j = c) (h : s.ShapeCasts t)
    (j : t.Idx) : shapeCast t M h j = c := by
  unfold shapeCast
  exact hM _

/-- The sum over both kept axes of a [32, 512] vector viewed [1, 32, 512] is, at the one index of the result, the sum
    over every index `i` of the [1, 32, 512] view of the vector at `(i₁, i₂)`. -/
theorem total_1ab (x : FVec Ideal S32x512 .f32) (h1 : S32x512.ShapeCasts S1x32x512) (h2 : S1x32x512.Reduces [1, 2] S1)
    (hφ : FKind.Formats .f32) (hacc : (0x00000000#32 : BitVec 32) = FKind.add.neutral .f32 hφ) (j : S1.Idx) :
    multiReduction (F := Ideal) .add [1, 2] S1 (shapeCast S1x32x512 x h1) 0x00000000#32 h2 hφ hacc j
      = ∑ i : S1x32x512.Idx, x (ix2 (i 1) (i 2)) := by
  refine (Ideal.multiReduction_add_total _ _ h2 (fun b => by match b with | ⟨0, _⟩ => rfl) hφ hacc j).trans ?_
  refine Finset.sum_congr rfl fun i _ => ?_
  exact (congrArg (shapeCast S1x32x512 x h1) (eq_ix3 i)).trans (shapeCast_ab_1ab_apply x h1 (i 0) (i 1) (i 2))

/-- That total, viewed [1, 1, 1], taken out as a scalar and spread over [1, 1], is the same sum at every index. -/
theorem spread_total (x : FVec Ideal S32x512 .f32) (h1 : S32x512.ShapeCasts S1x32x512) (h2 : S1x32x512.Reduces [1, 2] S1)
    (hφ : FKind.Formats .f32) (hacc : (0x00000000#32 : BitVec 32) = FKind.add.neutral .f32 hφ)
    (h3 : S1.ShapeCasts S1x1x1) (h4 : ∀ a, (![0, 0, 0] : Fin 3 → Nat) a < S1x1x1.size a) (y : S1x1.Idx) :
    broadcast S1x1 (extractAt ![0, 0, 0] (shapeCast S1x1x1
        (multiReduction (F := Ideal) .add [1, 2] S1 (shapeCast S1x32x512 x h1) 0x00000000#32 h2 hφ hacc) h3) h4) y
      = ∑ i : S1x32x512.Idx, x (ix2 (i 1) (i 2)) := by
  unfold broadcast extractAt
  exact shapeCast_const _ _ (total_1ab x h1 h2 hφ hacc) h3 _

/-- THE LOSS-SUM ACCUMULATOR. Its new value is its old value plus the sum, over every index `i` of a [1, 32, 512]
    block, of the product of the two [32, 512] vectors (the loss and the validity weight) at `(i₁, i₂)`. -/
theorem pay1_apply (v28 v30 : FVec Ideal S32x512 .f32) (v31 : Vec Ideal S1x1 .f32) (y : S1x1.Idx) :
    k0_pay1 (F := Ideal) v28 v30 v31 y = v31 y + ∑ i : S1x32x512.Idx, v28 (ix2 (i 1) (i 2)) * v30 (ix2 (i 1) (i 2)) := by
  unfold k0_pay1
  exact congrArg₂ (· + ·) (congrFun (shapeCast_self v31 _) y) (spread_total (mulf v28 v30) _ _ _ _ _ _ y)

/-- THE VALID-COUNT ACCUMULATOR. Its new value is its old value plus the sum, over every index `i` of a [1, 32, 512]
    block, of the [32, 512] vector (the validity weight) at `(i₁, i₂)`. -/
theorem pay2_apply (v30 : FVec Ideal S32x512 .f32) (v41 : Vec Ideal S1x1 .f32) (y : S1x1.Idx) :
    k0_pay2 (F := Ideal) v30 v41 y = v41 y + ∑ i : S1x32x512.Idx, v30 (ix2 (i 1) (i 2)) := by
  unfold k0_pay2
  exact congrArg₂ (· + ·) (congrFun (shapeCast_self v41 _) y) (spread_total v30 _ _ _ _ _ _ y)

/-! ## The accumulators' first value -/

/-- The first accumulator starts at zero: the splat of the float `0.0`, which is the extended real `0`. -/
theorem pay3_apply (y : S1x1.Idx) : k0_pay3 (F := Ideal) y = 0 := by
  unfold k0_pay3
  exact Ideal.ofBits_zero_f32

/-- The second accumulator starts at zero likewise. -/
theorem pay4_apply (y : S1x1.Idx) : k0_pay4 (F := Ideal) y = 0 := by
  unfold k0_pay4
  exact Ideal.ofBits_zero_f32

end Cert.KernelIdeal.KerLoss

end
-- ==== Proof.LossBlocks.lean ====
/-
  The 2·512·512 pixels of the image are the disjoint union of its 32 blocks of 32·512 pixels.

  Block `k` (for `k < 32`) holds batch `k / 16` and rows `32·(k mod 16) … 32·(k mod 16) + 31`. So the map
  `(k, i) ↦ pt k i` from (block number, position inside the block) to pixels is a bijection: the pixel
  (batch `b`, row `r`, column `c`) lies in block `16·b + r / 32`, at position (0, `r mod 32`, `c`), and nowhere else.
  A sum over all pixels is therefore the sum over the blocks of the sums inside each block.
-/
import proofs.«141522_g66623532696115_cont_9to1c4b_22_15_alg».proof.Proof.LossSpec
import Mathlib.Algebra.BigOperators.Fin
import Mathlib.Algebra.BigOperators.Group.Finset.Basic
import Mathlib.Logic.Equiv.Defs

noncomputable section

open scoped BigOperators

namespace Cert.Loss

open Idealize.ShloMosaic Idealize.ShloMosaic.ValueIdx

/-- The block that holds pixel `p`: sixteen blocks per batch, thirty-two rows per block. -/
def blkOf (p : SPix.Idx) : Fin 32 :=
  ⟨16 * (p 0).val + (p 1).val / 32, by
    have h0 : (p 0).val < 2 := (p 0).isLt
    have h1 : (p 1).val < 512 := (p 1).isLt
    omega⟩

/-- The position of pixel `p` inside its block: row modulo 32, same column. -/
def posOf (p : SPix.Idx) : SBlk.Idx :=
  ix3 (⟨0, by decide⟩ : Fin 1) (⟨(p 1).val % 32, Nat.mod_lt _ (by decide)⟩ : Fin 32) (⟨(p 2).val, (p 2).isLt⟩ : Fin 512)

theorem posOf_val1 (p : SPix.Idx) : (posOf p 1).val = (p 1).val % 32 := rfl
theorem posOf_val2 (p : SPix.Idx) : (posOf p 2).val = (p 2).val := rfl
theorem blkOf_val (p : SPix.Idx) : (blkOf p).val = 16 * (p 0).val + (p 1).val / 32 := rfl

/-- A pixel is the one at its position in its block. -/
theorem pt_blkOf_posOf (p : SPix.Idx) : pt (blkOf p).val (posOf p) = p := by
  have h0 : (p 0).val < 2 := (p 0).isLt
  have h1 : (p 1).val < 512 := (p 1).isLt
  funext d
  match d with
  | ⟨0, _⟩ =>
    apply Fin.ext
    show (pt (blkOf p).val (posOf p) 0).val = (p 0).val
    rw [pt_val0, blkOf_val]; omega
  | ⟨1, _⟩ =>
    apply Fin.ext
    show (pt (blkOf p).val (posOf p) 1).val = (p 1).val
    rw [pt_val1, blkOf_val, posOf_val1]; omega
  | ⟨2, _⟩ =>
    apply Fin.ext
    show (pt (blkOf p).val (posOf p) 2).val = (p 2).val
    rw [pt_val2, posOf_val2]

/-- The block of the pixel at position `i` of block `k` is `k`. -/
theorem blkOf_pt (k : Fin 32) (i : SBlk.Idx) : blkOf (pt k.val i) = k := by
  have hk : k.val < 32 := k.isLt
  have h1 : (i 1).val < 32 := (i 1).isLt
  apply Fin.ext
  rw [blkOf_val, pt_val0, pt_val1]; omega

/-- The position of the pixel at position `i` of block `k` is `i`. -/
theorem posOf_pt (k : ℕ) (i : SBlk.Idx) : posOf (pt k i) = i := by
  have h0 : (i 0).val < 1 := (i 0).isLt
  have h1 : (i 1).val < 32 := (i 1).isLt
  funext d
  match d with
  | ⟨0, _⟩ =>
    apply Fin.ext
    show (0 : ℕ) = (i 0).val
    omega
  | ⟨1, _⟩ =>
    apply Fin.ext
    show (posOf (pt k i) 1).val = (i 1).val
    rw [posOf_val1, pt_val1]; omega
  | ⟨2, _⟩ =>
    apply Fin.ext
    show (posOf (pt k i) 2).val = (i 2).val
    rw [posOf_val2, pt_val2]

/-- (block number, position in the block) ↦ pixel is a bijection onto the image's pixels. -/
def blkEquiv : Fin 32 × SBlk.Idx ≃ SPix.Idx where
  toFun q := pt q.1.val q.2
  invFun p := (blkOf p, posOf p)
  left_inv q := Prod.ext (blkOf_pt q.1 q.2) (posOf_pt q.1.val q.2)
  right_inv p := pt_blkOf_posOf p

/-- the image's 2·512·512 pixels are the disjoint union of the 32 blocks -/
theorem sum_blocks (f : SPix.Idx → EReal) : ∑ p : SPix.Idx, f p = ∑ k ∈ Finset.range 32, blockSum f k := by
  rw [← Fin.sum_univ_eq_sum_range (fun k => blockSum f k) 32, ← Equiv.sum_comp blkEquiv f, Fintype.sum_prod_type]
  rfl

end Cert.Loss

end
-- ==== Proof.AccumValue.lean ====
/-
  The two accumulators after the last grid point, at the ideal instance: the masked loss summed over every pixel,
  and the mask summed over every pixel.

  Entry (r, w) of block `t`'s loss is the cosine loss of pixel (t / 16, 32·(t mod 16) + r, w) — the block's entries are
  the arrays' entries at that pixel, channel by channel — and entry (r, w) of block `t`'s mask is the mask at that
  pixel. So the body's contribution at point `t` is the sum of (loss · mask), or of the mask, over block `t`; the
  accumulator after point `n` is the sum of the contributions of blocks 0 … n (the reset value is zero, and addition
  of extended reals is associative); and the 32 blocks together are all the pixels.
-/
import proofs.«141522_g66623532696115_cont_9to1c4b_22_15_alg».proof.Proof.Final
import proofs.«141522_g66623532696115_cont_9to1c4b_22_15_alg».proof.Proof.BlockRead
import proofs.«141522_g66623532696115_cont_9to1c4b_22_15_alg».proof.Proof.KerLoss
import proofs.«141522_g66623532696115_cont_9to1c4b_22_15_alg».proof.Proof.LossBlocks

noncomputable section

open scoped BigOperators

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.KerLoss Cert.Loss

variable (m : (ℓ : Loc nD τ sig) → Buf (Elt Ideal) ℓ)

/-- The cosine loss of pixel `p`, from the student and teacher arrays the region finds and the centre argument. -/
abbrev pixL (c : Dev nD) (p : SPix.Idx) : EReal :=
  pixLoss (V m c main_arg0) (V m c main_arg1) (m ((c : Thread nD τ).loc main_arg4)) p

/-- The mask at pixel `p`, as the region finds it. -/
abbrev pixV (c : Dev nD) (p : SPix.Idx) : EReal := V m c main_v5 p

/-- Entry (d, 0, 0) of the reshaped centre is entry `d` of the centre. -/
theorem centre_apply (c : Dev nD) (d : Fin 96) :
    V m c main_v6 (ix3 d (0 : Fin 1) (0 : Fin 1)) = m ((c : Thread nD τ).loc main_arg4) (ix1 d) := by
  rw [V_centre]
  exact shapeCast_apply _ _ _ (ix1 d) (by
    rw [Shape.rowMajor_val_one, Shape.rowMajor_val_three]
    show d.val = (d.val * 1 + 0) * 1 + 0
    omega)

/-- Entry (i₁, i₂) of block `t`'s mask is the mask at the pixel at position `i` of block `t`. -/
theorem maskOf_apply (c : Dev nD) (t : Fin cfg0.N) (i : S1x32x512.Idx) :
    maskOf m c t (ix2 (i 1) (i 2)) = pixV m c (pt t.val i) :=
  (pay6_apply (vblk m c t) (i 1) (i 2)).trans ((vblk_apply m c t (i 1) (i 2)).trans rfl)

/-- Entry (i₁, i₂) of block `t`'s loss is the cosine loss of the pixel at position `i` of block `t`. -/
theorem lossOf_apply (c : Dev nD) (t : Fin cfg0.N) (i : S1x32x512.Idx) :
    lossOf m c t (ix2 (i 1) (i 2)) = pixL m c (pt t.val i) := by
  refine (pay5_apply (sblk m c t) (tblk m c t) (cblk m c t) (i 1) (i 2)).trans ?_
  show lossAt _ _ _ = lossAt _ _ _
  congr 1
  · funext d; exact (sblk_apply m c t d (i 1) (i 2)).trans rfl
  · funext d; exact (tblk_apply m c t d (i 1) (i 2)).trans rfl
  · funext d; exact (cblk_apply m c t d).trans (centre_apply m c d)

/-- The body's loss contribution at point `t`: the masked loss summed over block `t`. -/
theorem blk_loss (c : Dev nD) (t : Fin cfg0.N) :
    ∑ i : S1x32x512.Idx, lossOf m c t (ix2 (i 1) (i 2)) * maskOf m c t (ix2 (i 1) (i 2))
      = blockSum (fun p => pixL m c p * pixV m c p) t.val :=
  Finset.sum_congr rfl fun i _ => by rw [lossOf_apply, maskOf_apply]

/-- The body's count contribution at point `t`: the mask summed over block `t`. -/
theorem blk_mask (c : Dev nD) (t : Fin cfg0.N) :
    ∑ i : S1x32x512.Idx, maskOf m c t (ix2 (i 1) (i 2)) = blockSum (pixV m c) t.val :=
  Finset.sum_congr rfl fun i _ => maskOf_apply m c t i

/-- After point `n` each accumulator holds the sum of the contributions of blocks 0 … n. -/
theorem acc_val (c : Dev nD) : ∀ (n : ℕ) (h : n < cfg0.N) (y : S1x1.Idx),
    (acc m c n h).1 y = ∑ k ∈ Finset.range (n + 1), blockSum (fun p => pixL m c p * pixV m c p) k
      ∧ (acc m c n h).2 y = ∑ k ∈ Finset.range (n + 1), blockSum (pixV m c) k
  | 0, h, y => by
    constructor
    · show k0_pay1 (lossOf m c ⟨0, h⟩) (maskOf m c ⟨0, h⟩) (k0_pay3 (F := Ideal)) y = _
      rw [pay1_apply, pay3_apply, zero_add, blk_loss, Finset.sum_range_one]
    · show k0_pay2 (maskOf m c ⟨0, h⟩) (k0_pay4 (F := Ideal)) y = _
      rw [pay2_apply, pay4_apply, zero_add, blk_mask, Finset.sum_range_one]
  | n + 1, h, y => by
    obtain ⟨ih1, ih2⟩ := acc_val c n (Nat.lt_of_succ_lt h) y
    constructor
    · show k0_pay1 (lossOf m c ⟨n + 1, h⟩) (maskOf m c ⟨n + 1, h⟩) (acc m c n (Nat.lt_of_succ_lt h)).1 y = _
      rw [pay1_apply, ih1, blk_loss]
      exact (Finset.sum_range_succ _ (n + 1)).symm
    · show k0_pay2 (maskOf m c ⟨n + 1, h⟩) (acc m c n (Nat.lt_of_succ_lt h)).2 y = _
      rw [pay2_apply, ih2, blk_mask]
      exact (Finset.sum_range_succ _ (n + 1)).symm

/-- The loss accumulator after the last point: the masked loss summed over every pixel. -/
theorem sumEnd_val (c : Dev nD) (y : S1x1.Idx) : sumEnd m c y = ∑ p : SPix.Idx, pixL m c p * pixV m c p := by
  rw [sum_blocks]
  exact (acc_val m c 31 last_lt y).1

/-- The count accumulator after the last point: the mask summed over every pixel. -/
theorem cntEnd_val (c : Dev nD) (y : S1x1.Idx) : cntEnd m c y = ∑ p : SPix.Idx, pixV m c p := by
  rw [sum_blocks]
  exact (acc_val m c 31 last_lt y).2

end Cert.KernelIdeal.Acc

end
-- ==== Proof.RefLoss.lean ====
/-
  The reference's per-pixel loss, read at an index.

  For a pixel `i` = (batch, row, column) the reference program moves the channel axis of the student and the
  teacher arrays last, subtracts the centre (broadcast along the pixel axes) from the teacher, and forms
  `1 - ⟨s, t - c⟩ / (max(√⟨s,s⟩, ε) · max(√⟨t-c,t-c⟩, ε))` from the three channel sums over `Fin 96`.
  Reading each stage at an index, the composed index maps are the coordinate constructors of the
  specification's channel vectors, each channel sum starts from the float zero, which is the real zero, and
  what is left is the specification's cosine loss word for word.
-/
import proofs.«141522_g66623532696115_cont_9to1c4b_22_15_alg».proof.Proof.LossSpec
import proofs.«141522_g66623532696115_cont_9to1c4b_22_15_alg».proof.Proof.RefRead
import Idealize.ShloMosaic.PureOps.Ideal
import Idealize.ShloMosaic.PureOps.Ideal.Laws
import Idealize.ShloMosaic.Lib.ValueIdx

noncomputable section

open scoped BigOperators

namespace Cert.ReferenceIdeal.RefLoss

open Idealize.ShloMosaic Idealize.ShloMosaic.ValueIdx Cert.ReferenceIdeal Cert.ReferenceIdeal.ReadP Cert.Loss

/-- Channel `k` of pixel `i` in the channels-last view of the student array is entry (batch, `k`, row, column)
    of the array itself (the index the dot product's channel sum reads). -/
theorem idx_v5_v11 (i : S2x512x512.Idx) (k : Fin 96) :
    idx_main_v5 (idx_main_v11 i k)
      = ix4 (⟨(i 0).val, (i 0).isLt⟩ : Fin 2) k (⟨(i 1).val, (i 1).isLt⟩ : Fin 512) (⟨(i 2).val, (i 2).isLt⟩ : Fin 512) := by
  funext a
  match a with
  | ⟨0, _⟩ => rfl
  | ⟨1, _⟩ => rfl
  | ⟨2, _⟩ => rfl
  | ⟨3, _⟩ => rfl

/-- The same entry, as the student's squared-norm channel sum reads it. -/
theorem idx_v5_v13 (i : S2x512x512.Idx) (k : Fin 96) :
    idx_main_v5 (idx_main_v13 i k)
      = ix4 (⟨(i 0).val, (i 0).isLt⟩ : Fin 2) k (⟨(i 1).val, (i 1).isLt⟩ : Fin 512) (⟨(i 2).val, (i 2).isLt⟩ : Fin 512) := by
  funext a
  match a with
  | ⟨0, _⟩ => rfl
  | ⟨1, _⟩ => rfl
  | ⟨2, _⟩ => rfl
  | ⟨3, _⟩ => rfl

/-- Channel `k` of pixel `i` in the channels-last view of the teacher array, as the dot product's sum reads it. -/
theorem idx_v6_v11 (i : S2x512x512.Idx) (k : Fin 96) :
    idx_main_v6 (idx_main_v11 i k)
      = ix4 (⟨(i 0).val, (i 0).isLt⟩ : Fin 2) k (⟨(i 1).val, (i 1).isLt⟩ : Fin 512) (⟨(i 2).val, (i 2).isLt⟩ : Fin 512) := by
  funext a
  match a with
  | ⟨0, _⟩ => rfl
  | ⟨1, _⟩ => rfl
  | ⟨2, _⟩ => rfl
  | ⟨3, _⟩ => rfl

/-- The same entry of the teacher array, as the centred teacher's squared-norm sum reads it. -/
theorem idx_v6_v16 (i : S2x512x512.Idx) (k : Fin 96) :
    idx_main_v6 (idx_main_v16 i k)
      = ix4 (⟨(i 0).val, (i 0).isLt⟩ : Fin 2) k (⟨(i 1).val, (i 1).isLt⟩ : Fin 512) (⟨(i 2).val, (i 2).isLt⟩ : Fin 512) := by
  funext a
  match a with
  | ⟨0, _⟩ => rfl
  | ⟨1, _⟩ => rfl
  | ⟨2, _⟩ => rfl
  | ⟨3, _⟩ => rfl

/-- The broadcast centre at channel `k` of any pixel is entry `k` of the centre (dot product's sum). -/
theorem idx_v7_v8_v11 (i : S2x512x512.Idx) (k : Fin 96) :
    idx_main_v7 (idx_main_v8 (idx_main_v11 i k)) = ix1 k := by
  funext a
  match a with
  | ⟨0, _⟩ => rfl

/-- The broadcast centre at channel `k` of any pixel is entry `k` of the centre (squared-norm sum). -/
theorem idx_v7_v8_v16 (i : S2x512x512.Idx) (k : Fin 96) :
    idx_main_v7 (idx_main_v8 (idx_main_v16 i k)) = ix1 k := by
  funext a
  match a with
  | ⟨0, _⟩ => rfl

/-- the reference's loss at pixel i is the cosine loss of that pixel's channel vectors -/
theorem loss_apply (x0 x1 : (⟨S2x96x512x512, .f32⟩ : BufTy).Contents (Elt Ideal)) (x4 : (⟨S96, .f32⟩ : BufTy).Contents (Elt Ideal)) (i : S2x512x512.Idx) :
    val_main_v25 (F := Ideal) x0 x1 x4 i = pixLoss x0 x1 x4 i := by
  rw [val_main_v25_apply, val_main_v24_apply, val_main_cst_5_apply, val_main_v23_apply,
    val_main_v22_apply, val_main_v21_apply, val_main_v20_apply, val_main_cst_4_apply,
    val_main_v19_apply, val_main_v18_apply, val_main_cst_3_apply,
    val_main_v17_apply, val_main_v16_apply, val_main_cst_2_apply,
    val_main_v14_apply, val_main_v13_apply, val_main_cst_1_apply,
    val_main_v11_apply, val_main_cst_0_apply]
  simp only [val_main_v15_apply, val_main_v12_apply, val_main_v10_apply, val_main_v9_apply,
    val_main_v8_apply, val_main_v7_apply, val_main_v6_apply, val_main_v5_apply,
    idx_v5_v11, idx_v5_v13, idx_v6_v11, idx_v6_v16, idx_v7_v8_v11, idx_v7_v8_v16,
    Ideal.subf_def, Ideal.mulf_def, Ideal.hostDivf_def, Ideal.maximumf_def, Ideal.hostUnary_sqrt_def,
    Ideal.ofBits_def, Ideal.ofBits_zero_f32, zero_add]
  rfl

end Cert.ReferenceIdeal.RefLoss

end
-- ==== Proof.Bridge.lean ====
/-
  The kernel program's result is the reference program's result, as functions of the five arguments, at the ideal
  instance.

  The reference returns `n > 0 ? s / max(n, 1) : 0` with `n` = float zero + the mask summed over all pixels and
  `s` = float zero + (loss · mask) summed over all pixels, the loss of a pixel being the cosine loss of its channel
  vectors. The kernel program returns the same expression of its two accumulators after the last grid point, which
  are those two sums: the float zero is the real zero, the mask array the region finds is the reference's mask (the
  same host operations of the same two arguments), and the arrays the region finds are the arguments.
-/
import proofs.«141522_g66623532696115_cont_9to1c4b_22_15_alg».proof.Proof.AccumValue
import proofs.«141522_g66623532696115_cont_9to1c4b_22_15_alg».proof.Proof.RefLoss

noncomputable section

open scoped BigOperators

open Idealize.ShloMosaic Idealize.ShloMosaic.TcCoe Idealize.SL.Sem Idealize.ShloMosaic.ValueIdx

namespace Cert.Proof.Bridge

open Cert.KernelIdeal Cert.KernelIdeal.Gen Cert.KernelIdeal.Acc Cert.Loss
open Cert.ReferenceIdeal.ReadP

variable (m : (ℓ : Loc nD τ sig) → Buf (Elt Ideal) ℓ)

/-- The mask the region finds is the reference's mask stage of the same two arguments. -/
theorem mask_eq (c : Dev nD) :
    (V m c main_v5 : S2x512x512.Idx → EReal)
      = val_main_v26 (F := Ideal) (m ((c : Thread nD τ).loc main_arg2)) (m ((c : Thread nD τ).loc main_arg3)) := by
  rw [V_mask]
  rfl

/-- The scalar view of a [1, 1] array is its one entry. -/
theorem scalar_apply (R : Vec Ideal S1x1 .f32) (i : S_.Idx) :
    shapeCast S_ R shapeCasts_S1x1_S_ i = R (ix2 (0 : Fin 1) (0 : Fin 1)) :=
  shapeCast_apply R shapeCasts_S1x1_S_ i (ix2 (0 : Fin 1) (0 : Fin 1)) (by
    rw [Shape.rowMajor_val_two]
    show (0 * 1 + 0 : ℕ) = (Shape.rowMajorPi S_.size i).val
    rw [Shape.rowMajorPi_zero])

/-- The count: the kernel's count accumulator, as a scalar, is the reference's count. -/
theorem count_eq (c : Dev nD) :
    shapeCast S_ (cntEnd m c) shapeCasts_S1x1_S_
      = val_main_v27 (F := Ideal) (m ((c : Thread nD τ).loc main_arg2)) (m ((c : Thread nD τ).loc main_arg3)) := by
  funext i
  rw [scalar_apply, cntEnd_val, val_main_v27_apply, val_main_cst_6_apply, Ideal.ofBits_def, Ideal.ofBits_zero_f32, zero_add]
  refine Finset.sum_congr rfl fun p _ => ?_
  exact congrFun (mask_eq m c) p

/-- The loss sum: the kernel's loss accumulator, as a scalar, is the reference's masked loss sum. -/
theorem sum_eq (c : Dev nD) :
    shapeCast S_ (sumEnd m c) shapeCasts_S1x1_S_
      = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  rw [scalar_apply, sumEnd_val, val_main_v30_apply, val_main_cst_8_apply, Ideal.ofBits_def, Ideal.ofBits_zero_f32, zero_add]
  refine Finset.sum_congr rfl fun p _ => ?_
  rw [val_main_v29_apply, Ideal.mulf_def, Cert.ReferenceIdeal.RefLoss.loss_apply]
  show pixLoss (V m c main_arg0) (V m c main_arg1) _ p * V m c main_v5 p = _
  rw [V_main_arg0, V_main_arg1, mask_eq]

/-- The kernel program's result is the reference's result stage of the same five arguments. -/
theorem result_eq (c : Dev nD) :
    tailOf (sumEnd m c) (cntEnd m c)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  unfold tailOf
  rw [count_eq, sum_eq]
  rfl

end Cert.Proof.Bridge

end
-- ==== Proof.lean ====
/-
  The certificate of the masked per-pixel cosine loss kernel against its jnp reference.

  Both programs take student and teacher feature maps [2, 96, 512, 512], a boolean mask [2, 512, 512], the input
  image [2, 1, 512, 512] and a centre [96]. A pixel is valid when the image's one channel is not zero there and the
  mask is clear. The loss of a pixel is `1 - ⟨s, t - c⟩ / (max(√⟨s,s⟩, ε) · max(√⟨t-c,t-c⟩, ε))` over its 96 channels; the
  result is the mean loss over the valid pixels, `n > 0 ? (∑ loss · valid) / max(n, 1) : 0` with `n = ∑ valid`.

  The reference computes the two sums over all 2·512·512 pixels at once. The kernel walks a 2 × 16 grid of
  [32, 512]-pixel blocks, keeps the two sums in [1, 1] accumulators that it resets at the first point and writes back
  after the last, and the division is done by the host operations after the region. Over the extended reals the sum
  over all pixels is the sum over the 32 blocks of the sums inside each block (addition is commutative and
  associative there, whatever the summands), the float zero the sums start from is the real zero, and every other
  operation is the same exact operation on both sides: so the two results are equal, with no use of the inputs'
  finiteness.

  frame_Kernel, frame_KernelIdeal: the generated frames. frame_ReferenceIdeal: the reference's run with the result
  dropped. preserves: the idealization rewrote nothing. algebraic: the kernel program's run ends at the tail
  expression of its two final accumulators (Final), which are the two sums (AccumValue), and that is the reference's
  result stage of the same arguments (Bridge).
-/
import proofs.«141522_g66623532696115_cont_9to1c4b_22_15_alg».proof.Defs
import proofs.«141522_g66623532696115_cont_9to1c4b_22_15_alg».proof.Proof.Gen.Kernel
import proofs.«141522_g66623532696115_cont_9to1c4b_22_15_alg».proof.Proof.Gen.Kernel.Frame
import proofs.«141522_g66623532696115_cont_9to1c4b_22_15_alg».proof.Proof.Gen.KernelIdeal
import proofs.«141522_g66623532696115_cont_9to1c4b_22_15_alg».proof.Proof.Gen.KernelIdeal.Frame
import proofs.«141522_g66623532696115_cont_9to1c4b_22_15_alg».proof.Proof.Gen.ReferenceIdeal
import proofs.«141522_g66623532696115_cont_9to1c4b_22_15_alg».proof.Proof.Gen.Pre_finite_inputs
import proofs.«141522_g66623532696115_cont_9to1c4b_22_15_alg».proof.Proof.RefRun
import proofs.«141522_g66623532696115_cont_9to1c4b_22_15_alg».proof.Proof.RefRead
import proofs.«141522_g66623532696115_cont_9to1c4b_22_15_alg».proof.Proof.Final
import proofs.«141522_g66623532696115_cont_9to1c4b_22_15_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments both programs end, the kernel program at the tail expression of
    its two final accumulators, the reference at its result stage of the arguments: one extended real. -/
theorem algebraic : Cert.algebraic_KernelIdeal_ReferenceIdeal := by
  intro m ρ m' ρ' _ hagree
  refine ⟨fun c => Cert.KernelIdeal.Acc.tailOf (Cert.KernelIdeal.Acc.sumEnd m c) (Cert.KernelIdeal.Acc.cntEnd m c),
    Cert.KernelIdeal.Acc.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v33_eq, (hagree c).1, (hagree c).2.1, (hagree c).2.2.1, (hagree c).2.2.2.1,
    (hagree c).2.2.2.2]
  exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
